-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg5 : FVec F S96x96 .f32) (main_arg6 : FVec F S96x96 .f32) (main_arg7 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg5
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96x96 .f32 := Host.absf main_arg6
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg7
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  main_v33

def fn {F : FTy → Type} [FloatOps F] (main_arg0 : FVec F S50000x96 .f32) (main_arg1 : IVec S2x800000 32) (main_arg2 : FVec F S96x96 .f32) (main_arg3 : FVec F S96x96 .f32) (main_arg4 : FVec F S96 .f32) (main_arg5 : FVec F S96x96 .f32) (main_arg6 : FVec F S96x96 .f32) (main_arg7 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96x96 .f32 := Host.absf main_arg3
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S1x96 : Shape := ⟨2, ![1, 96]⟩
abbrev S5000x96 : Shape := ⟨2, ![5000, 96]⟩

abbrev nBuf : Space → Nat
  | .hbm => 70
  | .vmem => 18
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96x96, .f32⟩
  | .hbm, ⟨4, _⟩ => ⟨S96, .f32⟩
  | .hbm, ⟨5, _⟩ => ⟨S96x96, .f32⟩
  | .hbm, ⟨6, _⟩ => ⟨S96x96, .f32⟩
  | .hbm, ⟨7, _⟩ => ⟨S96, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S1x96, .f32⟩
  | .hbm, ⟨38, _⟩ => ⟨S50000x96, .f32⟩
  | .hbm, ⟨39, _⟩ => ⟨S1x800000, .i32⟩
  | .hbm, ⟨40, _⟩ => ⟨S800000, .i32⟩
  | .hbm, ⟨41, _⟩ => ⟨S1x800000, .i32⟩
  | .hbm, ⟨42, _⟩ => ⟨S800000, .i32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x96, .f32⟩
  | .hbm, ⟨52, _⟩ => ⟨S_, .f32⟩
  | .hbm, ⟨53, _⟩ => ⟨S50000x96, .f32⟩
  | .hbm, ⟨54, _⟩ => ⟨S800000x1, .i32⟩
  | .hbm, ⟨55, _⟩ => ⟨S50000x96, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x96, .f32⟩
  | .hbm, ⟨67, _⟩ => ⟨S50000x96, .f32⟩
  | .hbm, ⟨68, _⟩ => ⟨S1x96, .f32⟩
  | .hbm, ⟨69, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x96, .f32⟩
  | .local _ .vmem, ⟨5, _⟩ => ⟨S96x96, .f32⟩
  | .local _ .vmem, ⟨6, _⟩ => ⟨S1x96, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S96x96, .f32⟩
  | .local _ .vmem, ⟨14, _⟩ => ⟨S96x96, .f32⟩
  | .local _ .vmem, ⟨15, _⟩ => ⟨S1x96, .f32⟩
  | .local _ .vmem, ⟨16, _⟩ => ⟨S5000x96, .f32⟩
  | .local _ .vmem, ⟨17, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x96.size a ≤ S96x96.size a
  hwx1_3 : ∀ i : grid1.Coords, EltTy.bits .f32 = 32 ∨ (Rect.block (s := S96x96) S96x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S50000x96.size a
  hwx1_5 : ∀ i : grid1.Coords, EltTy.bits .f32 = 32 ∨ (Rect.block (s := S50000x96) S5000x96.size (cc1_transform_5 i) (hinb1_5 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_v22) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S1x96 : Shape := ⟨2, ![1, 96]⟩

abbrev nBuf : Space → Nat
  | .hbm => 84
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96x96, .f32⟩
  | .hbm, ⟨4, _⟩ => ⟨S96, .f32⟩
  | .hbm, ⟨5, _⟩ => ⟨S96x96, .f32⟩
  | .hbm, ⟨6, _⟩ => ⟨S96x96, .f32⟩
  | .hbm, ⟨7, _⟩ => ⟨S96, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S50000x96, .f32⟩
  | .hbm, ⟨38, _⟩ => ⟨S50000x96, .f32⟩
  | .hbm, ⟨39, _⟩ => ⟨S50000x96, .f32⟩
  | .hbm, ⟨40, _⟩ => ⟨S1x96, .f32⟩
  | .hbm, ⟨41, _⟩ => ⟨S50000x96, .f32⟩
  | .hbm, ⟨42, _⟩ => ⟨S50000x96, .f32⟩
  | .hbm, ⟨43, _⟩ => ⟨S_, .f32⟩
  | .hbm, ⟨44, _⟩ => ⟨S50000x96, .f32⟩
  | .hbm, ⟨45, _⟩ => ⟨S50000x96, .f32⟩
  | .hbm, ⟨46, _⟩ => ⟨S1x800000, .i32⟩
  | .hbm, ⟨47, _⟩ => ⟨S800000, .i32⟩
  | .hbm, ⟨48, _⟩ => ⟨S1x800000, .i32⟩
  | .hbm, ⟨49, _⟩ => ⟨S800000, .i32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x96, .f32⟩
  | .hbm, ⟨59, _⟩ => ⟨S_, .f32⟩
  | .hbm, ⟨60, _⟩ => ⟨S50000x96, .f32⟩
  | .hbm, ⟨61, _⟩ => ⟨S800000x1, .i32⟩
  | .hbm, ⟨62, _⟩ => ⟨S50000x96, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x96, .f32⟩
  | .hbm, ⟨74, _⟩ => ⟨S50000x96, .f32⟩
  | .hbm, ⟨75, _⟩ => ⟨S50000x96, .f32⟩
  | .hbm, ⟨76, _⟩ => ⟨S50000x96, .f32⟩
  | .hbm, ⟨77, _⟩ => ⟨S50000x96, .f32⟩
  | .hbm, ⟨78, _⟩ => ⟨S1x96, .f32⟩
  | .hbm, ⟨79, _⟩ => ⟨S50000x96, .f32⟩
  | .hbm, ⟨80, _⟩ => ⟨S50000x96, .f32⟩
  | .hbm, ⟨81, _⟩ => ⟨S_, .f32⟩
  | .hbm, ⟨82, _⟩ => ⟨S50000x96, .f32⟩
  | .hbm, ⟨83, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S50000x96_S96x96_S50000x96_1_0_0_1_n_n_wf : DotDims.WF S50000x96 S96x96 S50000x96 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.DenseSpec.lean ====
/-
  One dense layer of a two-layer neighbourhood-mean graph convolution, on the extended reals. From the aggregated
  neighbour features `a` and the nodes' own features `x` (both `M × 96`), two `96 × 96` weight matrices and a bias row,

      out (p, q) = max ( Σ_k a (p, k) · wl (k, q)  +  Σ_k x (p, k) · wr (k, q)  +  b (0, q) ,  0 ).

  Two spellings compute it. A row tile spells each product as a matrix-unit product into a zero accumulator of operands
  narrowed to bf16 (a change of format is the identity on extended reals), adds the bias row broadcast down the rows and
  takes the maximum against a splat of zero. The whole array spells each product as a `dot_general`, adds the bias row
  broadcast down the rows and takes the maximum against a broadcast zero. Read at an index, each product is the sum over
  the 96 contraction coordinates of the operands' products (zero plus a sum is the sum), so both spellings are `dense`:
  `tile_eq`, `host_eq`. No law beyond that is used: the two sides add the same three terms in the same order, so nothing
  here needs the inputs finite.

  The layer is local in the rows: row `p` of the result reads row `p` of `a` and of `x` only. So a tile of 5000 rows of
  the whole result is the layer of the operands' tiles (`dense_tile`), which is what lets ten tiles' results be read as
  one `50000 × 96` array.
-/
import Idealize.ShloMosaic.PureOps.Ideal.Laws
import Idealize.ShloMosaic.Lib.ValueIdx
import Idealize.ShloMosaic.Lib.ValueLayout
import Idealize.ShloMosaic.Lib.Pipeline.Value
import proofs.«105834_j89412629168562_1_alg».proof.Proof.LibPlainDot

noncomputable section

/-! # One dense layer on the extended reals -/

namespace Cert.Sage

open Idealize.ShloMosaic Idealize.ShloMosaic.ValueIdx

variable {M : Nat}

/-- Entry `(p, q)` of one dense layer: the aggregated features' row `p` against column `q` of the neighbour
    weights, plus the node's own row `p` against column `q` of the root weights, plus the bias at `q`, clipped below
    at zero. -/
def denseAt (a x : FVec Ideal ⟨2, ![M, 96]⟩ .f32) (wl wr : FVec Ideal ⟨2, ![96, 96]⟩ .f32)
    (b : FVec Ideal ⟨2, ![1, 96]⟩ .f32) (p : Fin M) (q : Fin 96) : EReal :=
  max ((∑ k : Fin 96, a (ix2 p k) * wl (ix2 k q)) + (∑ k : Fin 96, x (ix2 p k) * wr (ix2 k q)) + b (ix2 (0 : Fin 1) q)) 0

/-- The layer's `M × 96` result. -/
def dense (a x : FVec Ideal ⟨2, ![M, 96]⟩ .f32) (wl wr : FVec Ideal ⟨2, ![96, 96]⟩ .f32)
    (b : FVec Ideal ⟨2, ![1, 96]⟩ .f32) : FVec Ideal ⟨2, ![M, 96]⟩ .f32 :=
  fun i => denseAt a x wl wr b (i 0) (i 1)

/-- The tile spelling: each product taken by the matrix unit into a zero accumulator from operands narrowed to bf16 (the
    identity on extended reals), the bias row broadcast down the rows, the maximum against a splat of zero. -/
theorem tile_eq (a x : FVec Ideal ⟨2, ![M, 96]⟩ .f32) (wl wr : FVec Ideal ⟨2, ![96, 96]⟩ .f32)
    (b : FVec Ideal ⟨2, ![1, 96]⟩ .f32) (hlt : FTy.bf16.bits < FTy.f32.bits)
    (hb : (⟨2, ![1, 96]⟩ : Shape).Broadcasts ⟨2, ![M, 96]⟩) :
    maximumf (addf (addf
        (matmul (DotDims.plain M 96 96) none (truncf .bf16 a hlt) (truncf .bf16 wl hlt) (constant ⟨2, ![M, 96]⟩ .f32 0x00000000#32))
        (matmul (DotDims.plain M 96 96) none (truncf .bf16 x hlt) (truncf .bf16 wr hlt) (constant ⟨2, ![M, 96]⟩ .f32 0x00000000#32)))
        (broadcastTo ⟨2, ![M, 96]⟩ b hb))
      (broadcast ⟨2, ![M, 96]⟩ (Scalar.ofBits (F := Ideal) .f32 0x00000000#32))
    = dense a x wl wr b := by
  funext i
  obtain ⟨p, q, rfl⟩ : ∃ (p : Fin M) (q : Fin 96), i = ix2 p q := ⟨i 0, i 1, eq_ix2 i⟩
  rw [maximumf_apply, addf_apply, addf_apply, PlainDot.matmul_zero_apply, PlainDot.matmul_zero_apply,
    broadcastTo_1b_ab_apply, broadcast_apply]
  show max _ (Ideal.ofBits .f32 0x00000000#32) = _
  rw [Ideal.ofBits_zero_f32]
  rfl

/-- The whole-array spelling: each product a `dot_general`, the bias vector laid out as a row and broadcast down the
    rows, the maximum against a broadcast zero. -/
theorem host_eq (a x : FVec Ideal ⟨2, ![M, 96]⟩ .f32) (wl wr : FVec Ideal ⟨2, ![96, 96]⟩ .f32)
    (b : FVec Ideal ⟨2, ![1, 96]⟩ .f32)
    (h2 : (⟨2, ![1, 96]⟩ : Shape).BroadcastsInDim ⟨2, ![M, 96]⟩ ![0, 1])
    (h0 : (⟨0, ![]⟩ : Shape).BroadcastsInDim ⟨2, ![M, 96]⟩ ![]) :
    maximumf (addf (addf (Host.dotGeneral (DotDims.plain M 96 96) none a wl) (Host.dotGeneral (DotDims.plain M 96 96) none x wr))
        (broadcastInDim ⟨2, ![M, 96]⟩ ![0, 1] h2 b))
      (broadcastInDim ⟨2, ![M, 96]⟩ ![] h0 (constant (F := Ideal) ⟨0, ![]⟩ .f32 0x00000000#32))
    = dense a x wl wr b := by
  funext i
  obtain ⟨p, q, rfl⟩ : ∃ (p : Fin M) (q : Fin 96), i = ix2 p q := ⟨i 0, i 1, eq_ix2 i⟩
  rw [maximumf_apply, addf_apply, addf_apply]
  simp only [Host.dotGeneral]
  rw [Ideal.dotGeneral_apply, Ideal.dotGeneral_apply, PlainDot.sum_contr, PlainDot.sum_contr,
    broadcastInDim_apply ![0, 1] h2 b (ix2 p q) (ix2 (0 : Fin 1) q) (fun ax => by
      match ax with
      | ⟨0, _⟩ => rfl
      | ⟨1, _⟩ => rfl),
    broadcastInDim_apply ![] h0 _ (ix2 p q) ix0 (fun ax => ax.elim0)]
  show max _ (Ideal.ofBits .f32 0x00000000#32) = _
  rw [Ideal.ofBits_zero_f32]
  rfl

/-- A length-96 vector laid out as a `1 × 96` row by a reshape and by a broadcast along a new leading axis: one row. -/
theorem biasRow_eq (bv : FVec Ideal ⟨1, ![96]⟩ .f32) (hs : (⟨1, ![96]⟩ : Shape).ShapeCasts ⟨2, ![1, 96]⟩)
    (hb : (⟨1, ![96]⟩ : Shape).BroadcastsInDim ⟨2, ![1, 96]⟩ ![1]) :
    shapeCast ⟨2, ![1, 96]⟩ bv hs = broadcastInDim ⟨2, ![1, 96]⟩ ![1] hb bv := by
  funext j
  obtain ⟨u, i, rfl⟩ : ∃ (u : Fin 1) (i : Fin 96), j = ix2 u i := ⟨j 0, j 1, eq_ix2 j⟩
  rw [shapeCast_a_1a_apply]
  exact (broadcastInDim_apply ![1] hb bv (ix2 u i) (ix1 i) (fun ax => by
    match ax with
    | ⟨0, _⟩ => rfl)).symm

/-- A tile of the layer is the layer of the tiles: if a `5000`-row tile's operands are the whole operands' rows at
    the tile's row offset, its entry is the whole result's entry there. -/
theorem dense_tile (A X : FVec Ideal ⟨2, ![50000, 96]⟩ .f32) (a x : FVec Ideal ⟨2, ![5000, 96]⟩ .f32)
    (wl wr : FVec Ideal ⟨2, ![96, 96]⟩ .f32) (b : FVec Ideal ⟨2, ![1, 96]⟩ .f32)
    (i : (⟨2, ![50000, 96]⟩ : Shape).Idx) (j : (⟨2, ![5000, 96]⟩ : Shape).Idx)
    (ha : ∀ k : Fin 96, a (ix2 (j 0) k) = A (ix2 (i 0) k)) (hx : ∀ k : Fin 96, x (ix2 (j 0) k) = X (ix2 (i 0) k))
    (hq : (j 1).val = (i 1).val) :
    dense a x wl wr b j = dense A X wl wr b i := by
  have e : (j 1 : Fin 96) = i 1 := Fin.ext hq
  unfold dense denseAt
  simp only [ha, hx, e]

end Cert.Sage

end
-- ==== Proof.Region0Value.lean ====
/-
  What the first pallas_call leaves in its output array, as one function of the arrays it finds when it is entered.

  The call walks ten grid points. At point `t` it stages rows `5000 t … 5000 t + 4999` of the aggregated features and of
  the node features, and the two weight matrices and the bias row whole; the body stores one dense layer of those tiles
  into the output's tile, and the tile is written back to rows `5000 t …` of the output array. The layer is local in the
  rows, so what point `t` writes back is rows `5000 t …` of the layer of the WHOLE arrays; the ten tiles cover all
  50000 rows, so the output array ends as that layer. Everything is stated at any contents `V` of the buffers at the
  call's entry: the program's run supplies them.
-/
import proofs.«105834_j89412629168562_1_alg».proof.Proof.Gen.KernelIdeal.Frame
import proofs.«105834_j89412629168562_1_alg».proof.Proof.DenseSpec

set_option maxRecDepth 16384

noncomputable section

namespace Cert.KernelIdeal.Gen.Layer0

open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The arrays the call reads, and their tiles at a grid point, at their literal types -/

/-- The aggregated neighbour features. -/
abbrev aggArr (c : Dev nD) : FVec Ideal S50000x96 .f32 := V c main_v22
/-- The nodes' own features. -/
abbrev featArr (c : Dev nD) : FVec Ideal S50000x96 .f32 := V c main_arg0
/-- The neighbour weights. -/
abbrev wlArr (c : Dev nD) : FVec Ideal S96x96 .f32 := V c main_arg2
/-- The root weights. -/
abbrev wrArr (c : Dev nD) : FVec Ideal S96x96 .f32 := V c main_arg3
/-- The bias row. -/
abbrev biasArr (c : Dev nD) : FVec Ideal S1x96 .f32 := V c main_v23

abbrev aggBlk (c : Dev nD) (t : Fin cfg0.N) : FVec Ideal S5000x96 .f32 := iblk0 V c 0 t
abbrev featBlk (c : Dev nD) (t : Fin cfg0.N) : FVec Ideal S5000x96 .f32 := iblk0 V c 1 t
abbrev wlBlk (c : Dev nD) (t : Fin cfg0.N) : FVec Ideal S96x96 .f32 := iblk0 V c 2 t
abbrev wrBlk (c : Dev nD) (t : Fin cfg0.N) : FVec Ideal S96x96 .f32 := iblk0 V c 3 t
abbrev biasBlk (c : Dev nD) (t : Fin cfg0.N) : FVec Ideal S1x96 .f32 := iblk0 V c 4 t

/-- The layer of the whole arrays: what the output array ends holding. -/
def result (c : Dev nD) : FVec Ideal S50000x96 .f32 :=
  Cert.Sage.dense (aggArr V c) (featArr V c) (wlArr V c) (wrArr V c) (biasArr V c)

/-! ## The body's store is the layer of its loads -/

theorem tile (x0 x1 : FVec Ideal S5000x96 .f32) (x2 x3 : FVec Ideal S96x96 .f32) (x4 : FVec Ideal S1x96 .f32) :
    k0_pay1 (F := Ideal) x0 x1 x2 x3 x4 = Cert.Sage.dense x0 x1 x2 x3 x4 := by
  unfold k0_pay1
  simp only [shapeCast_self]
  exact Cert.Sage.tile_eq x0 x1 x2 x3 x4 _ _

/-! ## Where each window's tile sits -/

theorem zeros : (![0, 0] : Fin 2 → Nat) = fun _ => 0 := funext fun a => by fin_cases a <;> rfl

/-- The printed index maps, decided over the ten points: the two feature windows and the output move down the rows with
    the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The weights and the bias are staged whole. -/
theorem wlBlk_eq (c : Dev nD) (t : Fin cfg0.N) : wlBlk V c t = wlArr V c := by
  funext y
  show V c main_arg2 (((cfg0.win 2).blk t).view.emb y) = V c main_arg2 y
  refine congrArg (V c main_arg2) (funext fun a => Fin.ext ?_)
  obtain ⟨-, -, -, -, e0, e1, -⟩ := idx_facts t
  match a with
  | ⟨0, _⟩ => show win0_2.index t (0 : Fin 2) * 96 + 1 * (y 0).val = (y 0).val; rw [e0]; omega
  | ⟨1, _⟩ => show win0_2.index t (1 : Fin 2) * 96 + 1 * (y 1).val = (y 1).val; rw [e1]; omega

theorem wrBlk_eq (c : Dev nD) (t : Fin cfg0.N) : wrBlk V c t = wrArr V c := by
  funext y
  show V c main_arg3 (((cfg0.win 3).blk t).view.emb y) = V c main_arg3 y
  refine congrArg (V c main_arg3) (funext fun a => Fin.ext ?_)
  obtain ⟨-, -, -, -, -, -, e0, e1, -⟩ := idx_facts t
  match a with
  | ⟨0, _⟩ => show win0_3.index t (0 : Fin 2) * 96 + 1 * (y 0).val = (y 0).val; rw [e0]; omega
  | ⟨1, _⟩ => show win0_3.index t (1 : Fin 2) * 96 + 1 * (y 1).val = (y 1).val; rw [e1]; omega

theorem biasBlk_eq (c : Dev nD) (t : Fin cfg0.N) : biasBlk V c t = biasArr V c := by
  funext y
  show V c main_v23 (((cfg0.win 4).blk t).view.emb y) = V c main_v23 y
  refine congrArg (V c main_v23) (funext fun a => Fin.ext ?_)
  obtain ⟨-, -, -, -, -, -, -, -, e0, e1, -⟩ := idx_facts t
  match a with
  | ⟨0, _⟩ => show win0_4.index t (0 : Fin 2) * 1 + 1 * (y 0).val = (y 0).val; rw [e0]; omega
  | ⟨1, _⟩ => show win0_4.index t (1 : Fin 2) * 96 + 1 * (y 1).val = (y 1).val; rw [e1]; omega

/-- Row `p` of the aggregated features' tile at point `t` is row `5000 t + p` of the array. -/
theorem aggBlk_apply (c : Dev nD) (t : Fin cfg0.N) (p : Fin 5000) (k : Fin 96) (r : Fin 50000)
    (hr : r.val = 5000 * t.val + p.val) : aggBlk V c t (ix2 p k) = aggArr V c (ix2 r k) := by
  show V c main_v22 (((cfg0.win 0).blk t).view.emb (ix2 p k)) = V c main_v22 (ix2 r k)
  refine congrArg (V c main_v22) (funext fun a => Fin.ext ?_)
  obtain ⟨e0, e1, -⟩ := idx_facts t
  match a with
  | ⟨0, _⟩ => show win0_0.index t (0 : Fin 2) * 5000 + 1 * p.val = r.val; rw [e0]; omega
  | ⟨1, _⟩ => show win0_0.index t (1 : Fin 2) * 96 + 1 * k.val = k.val; rw [e1]; omega

/-- The same for the node features' tile. -/
theorem featBlk_apply (c : Dev nD) (t : Fin cfg0.N) (p : Fin 5000) (k : Fin 96) (r : Fin 50000)
    (hr : r.val = 5000 * t.val + p.val) : featBlk V c t (ix2 p k) = featArr V c (ix2 r k) := by
  show V c main_arg0 (((cfg0.win 1).blk t).view.emb (ix2 p k)) = V c main_arg0 (ix2 r k)
  refine congrArg (V c main_arg0) (funext fun a => Fin.ext ?_)
  obtain ⟨-, -, e0, e1, -⟩ := idx_facts t
  match a with
  | ⟨0, _⟩ => show win0_1.index t (0 : Fin 2) * 5000 + 1 * p.val = r.val; rw [e0]; omega
  | ⟨1, _⟩ => show win0_1.index t (1 : Fin 2) * 96 + 1 * k.val = k.val; rw [e1]; omega

/-- Entry `j` of the output's tile at point `t` sits at row `5000 t + j₀`, column `j₁` of the output array. -/
theorem outEmb (t : Fin cfg0.N) (j : S5000x96.Idx) :
    ((((cfg0.win 5).blk t).view.emb j) (0 : Fin 2)).val = 5000 * t.val + (j 0).val
    ∧ ((((cfg0.win 5).blk t).view.emb j) (1 : Fin 2)).val = (j 1).val := by
  obtain ⟨-, -, -, -, -, -, -, -, -, -, e0, e1⟩ := idx_facts t
  constructor
  · show win0_5.index t (0 : Fin 2) * 5000 + 1 * (j 0).val = _; rw [e0]; omega
  · show win0_5.index t (1 : Fin 2) * 96 + 1 * (j 1).val = _; rw [e1]; omega

/-! ## What a point writes back, and the whole array -/

/-- What point `t` writes back is tile `t` of the layer of the whole arrays. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero zeros]
  simp only [View.ld_unit_zero (S := S5000x96) zeros, View.ld_unit_zero (S := S96x96) zeros, View.ld_unit_zero (S := S1x96) zeros]
  funext j
  show k0_pay1 (F := Ideal) (aggBlk V c t) (featBlk V c t) (wlBlk V c t) (wrBlk V c t) (biasBlk V c t) j
    = result V c (((cfg0.win 5).blk t).view.emb j)
  rw [tile, wlBlk_eq, wrBlk_eq, biasBlk_eq]
  obtain ⟨h0, h1⟩ := outEmb t j
  exact Cert.Sage.dense_tile (aggArr V c) (featArr V c) (aggBlk V c t) (featBlk V c t) (wlArr V c) (wrArr V c) (biasArr V c)
    (((cfg0.win 5).blk t).view.emb j) j
    (fun k => aggBlk_apply V c t (j 0) k _ h0) (fun k => featBlk_apply V c t (j 0) k _ h0) h1.symm

/-- An index of the output array is in point `t`'s tile iff each coordinate is in the tile's range. -/
theorem mem_blk (t : Fin cfg0.N) (i : S50000x96.Idx) :
    i ∈ ((cfg0.win 5).blk t).view.set ↔ ∀ a : Fin 2, win0_5.index t a * S5000x96.size a ≤ (i a).val ∧ (i a).val < win0_5.index t a * S5000x96.size a + S5000x96.size a := by
  show i ∈ ((View.whole main_v24).slice (win0_5.rect t)).set ↔ _
  rw [View.set_slice_whole, Rect.mem_set_unit]
  exact Iff.rfl

/-- Every row is in some point's tile: row `r` in that of point `r / 5000`. -/
theorem cover (i : S50000x96.Idx) : ∃ t : Fin cfg0.N, (cfg0.win 5).flush t = true ∧ i ∈ ((cfg0.win 5).blk t).view.set := by
  have hi0 : (i 0).val < 50000 := (i 0).isLt
  have hi1 : (i 1).val < 96 := (i 1).isLt
  have hN : (i 0).val / 5000 < grid0.N := by rw [N_0]; omega
  obtain ⟨-, -, -, -, -, -, -, -, -, -, e0, e1⟩ := idx_facts ⟨(i 0).val / 5000, hN⟩
  refine ⟨⟨(i 0).val / 5000, hN⟩, flush0_5 _, ?_⟩
  rw [mem_blk]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hN⟩ (1 : Fin 2) * 96 ≤ (i 1).val ∧ (i 1).val < win0_5.index ⟨(i 0).val / 5000, hN⟩ (1 : Fin 2) * 96 + 96
    rw [e1]; omega

/-- THE OUTPUT ARRAY after the call: one dense layer of the arrays the call was entered with. -/
theorem final (c : Dev nD) : (dat0 V c).arrAt 5 cfg0.N = result V c :=
  (dat0 V c).arrAt_eq_of_cover 5 (result V c) (fun t _ => flushed_eq V c t) cover

end Cert.KernelIdeal.Gen.Layer0

end
-- ==== Proof.Region1Value.lean ====
/-
  What the second pallas_call leaves in its output array, as one function of the arrays it finds when it is entered.

  The call walks ten grid points. At point `t` it stages rows `5000 t … 5000 t + 4999` of the aggregated features and of
  the node features, and the two weight matrices and the bias row whole; the body stores one dense layer of those tiles
  into the output's tile, and the tile is written back to rows `5000 t …` of the output array. The layer is local in the
  rows, so what point `t` writes back is rows `5000 t …` of the layer of the WHOLE arrays; the ten tiles cover all
  50000 rows, so the output array ends as that layer. Everything is stated at any contents `V` of the buffers at the
  call's entry: the program's run supplies them.
-/
import proofs.«105834_j89412629168562_1_alg».proof.Proof.Gen.KernelIdeal.Frame
import proofs.«105834_j89412629168562_1_alg».proof.Proof.DenseSpec

set_option maxRecDepth 16384

noncomputable section

namespace Cert.KernelIdeal.Gen.Layer1

open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The arrays the call reads, and their tiles at a grid point, at their literal types -/

/-- The aggregated neighbour features. -/
abbrev aggArr (c : Dev nD) : FVec Ideal S50000x96 .f32 := V c main_v47
/-- The nodes' own features. -/
abbrev featArr (c : Dev nD) : FVec Ideal S50000x96 .f32 := V c main_v24
/-- The neighbour weights. -/
abbrev wlArr (c : Dev nD) : FVec Ideal S96x96 .f32 := V c main_arg5
/-- The root weights. -/
abbrev wrArr (c : Dev nD) : FVec Ideal S96x96 .f32 := V c main_arg6
/-- The bias row. -/
abbrev biasArr (c : Dev nD) : FVec Ideal S1x96 .f32 := V c main_v48

abbrev aggBlk (c : Dev nD) (t : Fin cfg1.N) : FVec Ideal S5000x96 .f32 := iblk1 V c 0 t
abbrev featBlk (c : Dev nD) (t : Fin cfg1.N) : FVec Ideal S5000x96 .f32 := iblk1 V c 1 t
abbrev wlBlk (c : Dev nD) (t : Fin cfg1.N) : FVec Ideal S96x96 .f32 := iblk1 V c 2 t
abbrev wrBlk (c : Dev nD) (t : Fin cfg1.N) : FVec Ideal S96x96 .f32 := iblk1 V c 3 t
abbrev biasBlk (c : Dev nD) (t : Fin cfg1.N) : FVec Ideal S1x96 .f32 := iblk1 V c 4 t

/-- The layer of the whole arrays: what the output array ends holding. -/
def result (c : Dev nD) : FVec Ideal S50000x96 .f32 :=
  Cert.Sage.dense (aggArr V c) (featArr V c) (wlArr V c) (wrArr V c) (biasArr V c)

/-! ## The body's store is the layer of its loads -/

theorem tile (x0 x1 : FVec Ideal S5000x96 .f32) (x2 x3 : FVec Ideal S96x96 .f32) (x4 : FVec Ideal S1x96 .f32) :
    k1_pay1 (F := Ideal) x0 x1 x2 x3 x4 = Cert.Sage.dense x0 x1 x2 x3 x4 := by
  unfold k1_pay1
  simp only [shapeCast_self]
  exact Cert.Sage.tile_eq x0 x1 x2 x3 x4 _ _

/-! ## Where each window's tile sits -/

theorem zeros : (![0, 0] : Fin 2 → Nat) = fun _ => 0 := funext fun a => by fin_cases a <;> rfl

/-- The printed index maps, decided over the ten points: the two feature windows and the output move down the rows with
    the point, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The weights and the bias are staged whole. -/
theorem wlBlk_eq (c : Dev nD) (t : Fin cfg1.N) : wlBlk V c t = wlArr V c := by
  funext y
  show V c main_arg5 (((cfg1.win 2).blk t).view.emb y) = V c main_arg5 y
  refine congrArg (V c main_arg5) (funext fun a => Fin.ext ?_)
  obtain ⟨-, -, -, -, e0, e1, -⟩ := idx_facts t
  match a with
  | ⟨0, _⟩ => show win1_2.index t (0 : Fin 2) * 96 + 1 * (y 0).val = (y 0).val; rw [e0]; omega
  | ⟨1, _⟩ => show win1_2.index t (1 : Fin 2) * 96 + 1 * (y 1).val = (y 1).val; rw [e1]; omega

theorem wrBlk_eq (c : Dev nD) (t : Fin cfg1.N) : wrBlk V c t = wrArr V c := by
  funext y
  show V c main_arg6 (((cfg1.win 3).blk t).view.emb y) = V c main_arg6 y
  refine congrArg (V c main_arg6) (funext fun a => Fin.ext ?_)
  obtain ⟨-, -, -, -, -, -, e0, e1, -⟩ := idx_facts t
  match a with
  | ⟨0, _⟩ => show win1_3.index t (0 : Fin 2) * 96 + 1 * (y 0).val = (y 0).val; rw [e0]; omega
  | ⟨1, _⟩ => show win1_3.index t (1 : Fin 2) * 96 + 1 * (y 1).val = (y 1).val; rw [e1]; omega

theorem biasBlk_eq (c : Dev nD) (t : Fin cfg1.N) : biasBlk V c t = biasArr V c := by
  funext y
  show V c main_v48 (((cfg1.win 4).blk t).view.emb y) = V c main_v48 y
  refine congrArg (V c main_v48) (funext fun a => Fin.ext ?_)
  obtain ⟨-, -, -, -, -, -, -, -, e0, e1, -⟩ := idx_facts t
  match a with
  | ⟨0, _⟩ => show win1_4.index t (0 : Fin 2) * 1 + 1 * (y 0).val = (y 0).val; rw [e0]; omega
  | ⟨1, _⟩ => show win1_4.index t (1 : Fin 2) * 96 + 1 * (y 1).val = (y 1).val; rw [e1]; omega

/-- Row `p` of the aggregated features' tile at point `t` is row `5000 t + p` of the array. -/
theorem aggBlk_apply (c : Dev nD) (t : Fin cfg1.N) (p : Fin 5000) (k : Fin 96) (r : Fin 50000)
    (hr : r.val = 5000 * t.val + p.val) : aggBlk V c t (ix2 p k) = aggArr V c (ix2 r k) := by
  show V c main_v47 (((cfg1.win 0).blk t).view.emb (ix2 p k)) = V c main_v47 (ix2 r k)
  refine congrArg (V c main_v47) (funext fun a => Fin.ext ?_)
  obtain ⟨e0, e1, -⟩ := idx_facts t
  match a with
  | ⟨0, _⟩ => show win1_0.index t (0 : Fin 2) * 5000 + 1 * p.val = r.val; rw [e0]; omega
  | ⟨1, _⟩ => show win1_0.index t (1 : Fin 2) * 96 + 1 * k.val = k.val; rw [e1]; omega

/-- The same for the node features' tile. -/
theorem featBlk_apply (c : Dev nD) (t : Fin cfg1.N) (p : Fin 5000) (k : Fin 96) (r : Fin 50000)
    (hr : r.val = 5000 * t.val + p.val) : featBlk V c t (ix2 p k) = featArr V c (ix2 r k) := by
  show V c main_v24 (((cfg1.win 1).blk t).view.emb (ix2 p k)) = V c main_v24 (ix2 r k)
  refine congrArg (V c main_v24) (funext fun a => Fin.ext ?_)
  obtain ⟨-, -, e0, e1, -⟩ := idx_facts t
  match a with
  | ⟨0, _⟩ => show win1_1.index t (0 : Fin 2) * 5000 + 1 * p.val = r.val; rw [e0]; omega
  | ⟨1, _⟩ => show win1_1.index t (1 : Fin 2) * 96 + 1 * k.val = k.val; rw [e1]; omega

/-- Entry `j` of the output's tile at point `t` sits at row `5000 t + j₀`, column `j₁` of the output array. -/
theorem outEmb (t : Fin cfg1.N) (j : S5000x96.Idx) :
    ((((cfg1.win 5).blk t).view.emb j) (0 : Fin 2)).val = 5000 * t.val + (j 0).val
    ∧ ((((cfg1.win 5).blk t).view.emb j) (1 : Fin 2)).val = (j 1).val := by
  obtain ⟨-, -, -, -, -, -, -, -, -, -, e0, e1⟩ := idx_facts t
  constructor
  · show win1_5.index t (0 : Fin 2) * 5000 + 1 * (j 0).val = _; rw [e0]; omega
  · show win1_5.index t (1 : Fin 2) * 96 + 1 * (j 1).val = _; rw [e1]; omega

/-! ## What a point writes back, and the whole array -/

/-- What point `t` writes back is tile `t` of the layer of the whole arrays. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero zeros]
  simp only [View.ld_unit_zero (S := S5000x96) zeros, View.ld_unit_zero (S := S96x96) zeros, View.ld_unit_zero (S := S1x96) zeros]
  funext j
  show k1_pay1 (F := Ideal) (aggBlk V c t) (featBlk V c t) (wlBlk V c t) (wrBlk V c t) (biasBlk V c t) j
    = result V c (((cfg1.win 5).blk t).view.emb j)
  rw [tile, wlBlk_eq, wrBlk_eq, biasBlk_eq]
  obtain ⟨h0, h1⟩ := outEmb t j
  exact Cert.Sage.dense_tile (aggArr V c) (featArr V c) (aggBlk V c t) (featBlk V c t) (wlArr V c) (wrArr V c) (biasArr V c)
    (((cfg1.win 5).blk t).view.emb j) j
    (fun k => aggBlk_apply V c t (j 0) k _ h0) (fun k => featBlk_apply V c t (j 0) k _ h0) h1.symm

/-- An index of the output array is in point `t`'s tile iff each coordinate is in the tile's range. -/
theorem mem_blk (t : Fin cfg1.N) (i : S50000x96.Idx) :
    i ∈ ((cfg1.win 5).blk t).view.set ↔ ∀ a : Fin 2, win1_5.index t a * S5000x96.size a ≤ (i a).val ∧ (i a).val < win1_5.index t a * S5000x96.size a + S5000x96.size a := by
  show i ∈ ((View.whole main_v49).slice (win1_5.rect t)).set ↔ _
  rw [View.set_slice_whole, Rect.mem_set_unit]
  exact Iff.rfl

/-- Every row is in some point's tile: row `r` in that of point `r / 5000`. -/
theorem cover (i : S50000x96.Idx) : ∃ t : Fin cfg1.N, (cfg1.win 5).flush t = true ∧ i ∈ ((cfg1.win 5).blk t).view.set := by
  have hi0 : (i 0).val < 50000 := (i 0).isLt
  have hi1 : (i 1).val < 96 := (i 1).isLt
  have hN : (i 0).val / 5000 < grid1.N := by rw [N_1]; omega
  obtain ⟨-, -, -, -, -, -, -, -, -, -, e0, e1⟩ := idx_facts ⟨(i 0).val / 5000, hN⟩
  refine ⟨⟨(i 0).val / 5000, hN⟩, flush1_5 _, ?_⟩
  rw [mem_blk]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hN⟩ (1 : Fin 2) * 96 ≤ (i 1).val ∧ (i 1).val < win1_5.index ⟨(i 0).val / 5000, hN⟩ (1 : Fin 2) * 96 + 96
    rw [e1]; omega

/-- THE OUTPUT ARRAY after the call: one dense layer of the arrays the call was entered with. -/
theorem final (c : Dev nD) : (dat1 V c).arrAt 5 cfg1.N = result V c :=
  (dat1 V c).arrAt_eq_of_cover 5 (result V c) (fun t _ => flushed_eq V c t) cover

end Cert.KernelIdeal.Gen.Layer1

end
-- ==== Proof.HostChain.lean ====
/-
  The host side of one layer, as the reference program spells it.

  `agg h e` is the neighbourhood mean: with `e`'s first row the source node and its second row the destination node of
  each of the 800000 edges (a negative source index counted from the end), the rows `h[src]` are gathered, summed into
  their destination rows, and each destination row is divided by the number of edges that arrive there, or by one where
  none does. Both programs apply this chain, operation for operation, to the layer's input features; no proof here looks
  inside it — it is carried as ONE function, and equal inputs give equal outputs.

  `layer a x wl wr bv` is the dense part as the host spells it: two `dot_general`s, the bias vector laid out as a row
  and broadcast down the rows, the maximum against zero.
-/
import proofs.«105834_j89412629168562_1_alg».proof.Proof.Gen.ReferenceIdeal

noncomputable section

namespace Cert.Sage.Host

open Idealize.ShloMosaic Cert.ReferenceIdeal Cert.ReferenceIdeal.Gen

variable {F : FTy → Type} [FloatOps F]

/-- The neighbourhood mean of the feature rows `h` over the edge list `e`. -/
def agg (h : FVec F S50000x96 .f32) (e : Vec F S2x800000 .i32) : FVec F S50000x96 .f32 :=
  (Host.divf (Host.scatterAdd scatter_S50000x96_S800000x1_S800000x96_1_0_0_1 (broadcastInDim S50000x96 ![] bcast_S_S50000x96 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x96_S800000x1_S800000x96_1_0_n_n_0_1_196 h (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000))))) (broadcastInDim S50000x96 ![0, 1] bcast_S50000x1_S50000x96_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] e slices_S2x800000_S1x800000_1_0) shapeCasts_S1x800000_S800000)) (broadcastInDim S800000 ![] bcast_S_S800000 (constant S_ .f32 0x3F800000#32))) (broadcastInDim S50000 ![] bcast_S_S50000 (constant S_ .f32 0x3F800000#32))))))

/-- The dense part of a layer on the host: `max (a · wl + x · wr + bias row, 0)`. -/
def layer (a x : FVec F S50000x96 .f32) (wl wr : FVec F S96x96 .f32) (bv : FVec F S96 .f32) : FVec F S50000x96 .f32 :=
  maximumf (addf (addf (Host.dotGeneral dot_S50000x96_S96x96_S50000x96_1_0_0_1_n_n none a wl) (Host.dotGeneral dot_S50000x96_S96x96_S50000x96_1_0_0_1_n_n none x wr)) (broadcastInDim S50000x96 ![0, 1] bcast_S1x96_S50000x96_0_1 (broadcastInDim S1x96 ![1] bcast_S96_S1x96_1 bv))) (broadcastInDim S50000x96 ![] bcast_S_S50000x96 (constant S_ .f32 0x00000000#32))

end Cert.Sage.Host

end
-- ==== Proof.KernelValue.lean ====
/-
  The kernel program's result as ONE function of its arguments, at the ideal values.

  The program is: a host stretch that forms the neighbourhood mean of the node features and lays the first bias out as
  a row; the first pallas_call, whose output array ends as the dense layer of what it was entered with (the first
  layer's result, `hidden`); a second host stretch, the same chain applied to `hidden`, and the second bias laid out;
  the second pallas_call, whose output ends as the dense layer of THOSE arrays (`out`). Each boundary's contents are a
  fold over the launch memory; each array a call reads is read back through the fold: the mean chain as one function of
  its two inputs, the weights and the edge list untouched since launch, the first call's output at what the first call
  left. The run keeps the second call's output at the last boundary's contents; so it ends at `out`.
-/
import proofs.«105834_j89412629168562_1_alg».proof.Proof.KernelRun
import proofs.«105834_j89412629168562_1_alg».proof.Proof.Region0Value
import proofs.«105834_j89412629168562_1_alg».proof.Proof.Region1Value
import proofs.«105834_j89412629168562_1_alg».proof.Proof.HostChain

set_option maxRecDepth 16384

noncomputable section

namespace Cert.KernelIdeal.Gen.Result

open Idealize.ShloMosaic Idealize.ShloMosaic.TcCoe Idealize.SL.Sem Idealize.ShloMosaic.StableHlo
open Cert.Sage.Host (agg)

variable (m : (ℓ : Loc nD τ sig) → Buf (Elt Ideal) ℓ) (ρ : Dev nD → PrngReg)

/-! ## The arguments at their literal types -/

/-- The node features. -/
abbrev argX (c : Dev nD) : FVec Ideal S50000x96 .f32 := m ((c.tc : Thread nD τ).loc main_arg0)
/-- The edge list: sources in row 0, destinations in row 1. -/
abbrev argE (c : Dev nD) : Vec Ideal S2x800000 .i32 := m ((c.tc : Thread nD τ).loc main_arg1)
abbrev argWl0 (c : Dev nD) : FVec Ideal S96x96 .f32 := m ((c.tc : Thread nD τ).loc main_arg2)
abbrev argWr0 (c : Dev nD) : FVec Ideal S96x96 .f32 := m ((c.tc : Thread nD τ).loc main_arg3)
abbrev argB0 (c : Dev nD) : FVec Ideal S96 .f32 := m ((c.tc : Thread nD τ).loc main_arg4)
abbrev argWl1 (c : Dev nD) : FVec Ideal S96x96 .f32 := m ((c.tc : Thread nD τ).loc main_arg5)
abbrev argWr1 (c : Dev nD) : FVec Ideal S96x96 .f32 := m ((c.tc : Thread nD τ).loc main_arg6)
abbrev argB1 (c : Dev nD) : FVec Ideal S96 .f32 := m ((c.tc : Thread nD τ).loc main_arg7)

/-- A bias vector laid out as a `1 × 96` row. -/
def biasRow (bv : FVec Ideal S96 .f32) : FVec Ideal S1x96 .f32 := shapeCast S1x96 bv shapeCasts_S96_S1x96

/-- The first layer's result. -/
def hidden (c : Dev nD) : FVec Ideal S50000x96 .f32 :=
  Cert.Sage.dense (agg (argX m c) (argE m c)) (argX m c) (argWl0 m c) (argWr0 m c) (biasRow (argB0 m c))

/-- The second layer's result: the program's. -/
def out (c : Dev nD) : FVec Ideal S50000x96 .f32 :=
  Cert.Sage.dense (agg (hidden m c) (argE m c)) (hidden m c) (argWl1 m c) (argWr1 m c) (biasRow (argB1 m c))

/-! ## What the first call is entered with -/

set_option maxHeartbeats 4000000 in
theorem entry0_agg (c : Dev nD) : Layer0.aggArr (V1 m ρ) c = agg (argX m c) (argE m c) := by
  show StableHlo.after hostOps0 (W0 m ρ c) (Proc.devRef .tc main_v22) = _
  after_results_simp <;> rfl

theorem entry0_x (c : Dev nD) : Layer0.featArr (V1 m ρ) c = argX m c := by
  show StableHlo.after hostOps0 (W0 m ρ c) (Proc.devRef .tc main_arg0) = _
  after_results <;> rfl

theorem entry0_wl (c : Dev nD) : Layer0.wlArr (V1 m ρ) c = argWl0 m c := by
  show StableHlo.after hostOps0 (W0 m ρ c) (Proc.devRef .tc main_arg2) = _
  after_results <;> rfl

theorem entry0_wr (c : Dev nD) : Layer0.wrArr (V1 m ρ) c = argWr0 m c := by
  show StableHlo.after hostOps0 (W0 m ρ c) (Proc.devRef .tc main_arg3) = _
  after_results <;> rfl

theorem entry0_b (c : Dev nD) : Layer0.biasArr (V1 m ρ) c = biasRow (argB0 m c) := by
  show StableHlo.after hostOps0 (W0 m ρ c) (Proc.devRef .tc main_v23) = _
  after_results <;> rfl

/-- The first call's output array, at its exit, is the first layer's result. -/
theorem exit0 (c : Dev nD) : W2 m ρ c (Proc.devRef .tc main_v24) = hidden m c := by
  refine (W2_arr m ρ c 5).trans ((Layer0.final (V1 m ρ) c).trans ?_)
  unfold Layer0.result hidden
  rw [entry0_agg, entry0_x, entry0_wl, entry0_wr, entry0_b]

/-- The edge list is as launched when the second stretch reads it. -/
theorem exit0_e (c : Dev nD) : W2 m ρ c (Proc.devRef .tc main_arg1) = argE m c := by
  refine (W2_of_ne m ρ c main_arg1 (by decide)).trans ?_
  show StableHlo.after hostOps0 (W0 m ρ c) (Proc.devRef .tc main_arg1) = _
  after_results <;> rfl

/-- So is the second bias. -/
theorem exit0_b1 (c : Dev nD) : W2 m ρ c (Proc.devRef .tc main_arg7) = argB1 m c := by
  refine (W2_of_ne m ρ c main_arg7 (by decide)).trans ?_
  show StableHlo.after hostOps0 (W0 m ρ c) (Proc.devRef .tc main_arg7) = _
  after_results <;> rfl

/-! ## What the second call is entered with -/

set_option maxHeartbeats 4000000 in
theorem entry1_agg (c : Dev nD) : Layer1.aggArr (V3 m ρ) c = agg (hidden m c) (argE m c) := by
  show StableHlo.after hostOps1 (W2 m ρ c) (Proc.devRef .tc main_v47) = _
  after_results_simp
  rw [exit0 m ρ c, exit0_e m ρ c]
  rfl

theorem entry1_x (c : Dev nD) : Layer1.featArr (V3 m ρ) c = hidden m c := by
  show StableHlo.after hostOps1 (W2 m ρ c) (Proc.devRef .tc main_v24) = _
  after_results
  exact exit0 m ρ c

/-- The second call only reads its weights: their arrays at its exit are as at its entry, and as launched. -/
theorem entry1_wl (c : Dev nD) : Layer1.wlArr (V3 m ρ) c = argWl1 m c :=
  ((W4_arr m ρ c 2).trans (((dat1 (V3 m ρ) c).arrAt_in 2 rfl _).trans (A_eq1 (V3 m ρ) c 2))).symm.trans (W4_main_arg5 m ρ c)

theorem entry1_wr (c : Dev nD) : Layer1.wrArr (V3 m ρ) c = argWr1 m c :=
  ((W4_arr m ρ c 3).trans (((dat1 (V3 m ρ) c).arrAt_in 3 rfl _).trans (A_eq1 (V3 m ρ) c 3))).symm.trans (W4_main_arg6 m ρ c)

theorem entry1_b (c : Dev nD) : Layer1.biasArr (V3 m ρ) c = biasRow (argB1 m c) := by
  show StableHlo.after hostOps1 (W2 m ρ c) (Proc.devRef .tc main_v48) = _
  after_results
  rw [exit0_b1 m ρ c]
  rfl

/-- The second call's output array, at the last boundary, is the second layer's result. -/
theorem result_eq (c : Dev nD) : W4 m ρ c (Proc.devRef .tc main_v49) = out m c := by
  refine (W4_arr m ρ c 5).trans ((Layer1.final (V3 m ρ) c).trans ?_)
  unfold Layer1.result out
  rw [entry1_agg, entry1_x, entry1_wl, entry1_wr, entry1_b]

/-- THE RUN: every weakly fair execution terminates with the result array at `out` of the arguments, the arguments
    as launched. -/
theorem run : θ_run defs (onTc (τ := τ) (main (F := Ideal))) ⟨m, fun _ => 0, ρ⟩ (fun r => ∀ c : Dev nD,
      r.2.mem ((c.tc : Thread nD τ).loc main_v49) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (ResultRun.run_result m ρ)

end Cert.KernelIdeal.Gen.Result

end
-- ==== Proof.RefValue.lean ====
/-
  What the reference computes, at the ideal values: two layers, each the dense layer of the neighbourhood mean of its
  input and of the input itself. The reference's run ends with its result at one closed term of the arguments; that term
  is, subterm for subterm, `layer (agg H e) H W5 W6 b1` with `H = layer (agg x e) x W2 W3 b0` (`res_eq`), and at the ideal
  values the host's spelling of the dense part is the layer of the specification, each `dot_general` the sum over the 96
  contraction coordinates (`layer_eq`).
-/
import proofs.«105834_j89412629168562_1_alg».proof.Proof.Gen.ReferenceIdeal.Run
import proofs.«105834_j89412629168562_1_alg».proof.Proof.HostChain
import proofs.«105834_j89412629168562_1_alg».proof.Proof.DenseSpec

noncomputable section

namespace Cert.ReferenceIdeal.Layers

open Idealize.ShloMosaic Idealize.ShloMosaic.TcCoe Idealize.SL.Sem Cert.ReferenceIdeal Cert.ReferenceIdeal.Gen Cert.Sage.Host

/-- The host's dense part is the specification's layer, the bias vector laid out as a row. -/
theorem layer_eq (a x : FVec Ideal S50000x96 .f32) (wl wr : FVec Ideal S96x96 .f32) (bv : FVec Ideal S96 .f32) :
    layer (F := Ideal) a x wl wr bv = Cert.Sage.dense a x wl wr (broadcastInDim S1x96 ![1] bcast_S96_S1x96_1 bv) := by
  unfold layer
  exact Cert.Sage.host_eq a x wl wr _ _ _

variable {F : FTy → Type} [FloatOps F]
variable (m : (ℓ : Loc nD τ sig) → Buf (Elt F) ℓ)

/-- The first layer's result: the second layer's input. -/
def hidden (c : Dev nD) : FVec F S50000x96 .f32 :=
  layer (agg (m ((c.tc : Thread nD τ).loc main_arg0)) (m ((c.tc : Thread nD τ).loc main_arg1)))
    (m ((c.tc : Thread nD τ).loc main_arg0)) (m ((c.tc : Thread nD τ).loc main_arg2)) (m ((c.tc : Thread nD τ).loc main_arg3))
    (m ((c.tc : Thread nD τ).loc main_arg4))

/-- The run's result term is the second layer of the first. -/
theorem res_eq (c : Dev nD) :
    Cert.ReferenceIdeal.Value.res_main_v59 m c
      = layer (agg (hidden m c) (m ((c.tc : Thread nD τ).loc main_arg1))) (hidden m c)
          (m ((c.tc : Thread nD τ).loc main_arg5)) (m ((c.tc : Thread nD τ).loc main_arg6)) (m ((c.tc : Thread nD τ).loc main_arg7)) := by
  unfold Cert.ReferenceIdeal.Value.res_main_v59 hidden layer agg
  rfl

end Cert.ReferenceIdeal.Layers

end
-- ==== Proof.TwoLayers.lean ====
/-
  The two programs compute one function.

  Kernel: `out = dense (agg H e) H W5 W6 (row b1)` with `H = dense (agg x e) x W2 W3 (row b0)`, where `row` lays a bias
  vector out as a `1 × 96` row by a reshape. Reference: the same with its own spelling of the dense part, which at the
  ideal values is `dense`, the bias laid out as a row by a broadcast along a new leading axis. A reshape of a vector to
  one row and a broadcast of it to one row are the same row; the neighbourhood mean is the same chain of host operations
  on both sides, applied to equal inputs. So, from memories that agree on the eight arguments, the reference's result
  term is the kernel's `out`.
-/
import proofs.«105834_j89412629168562_1_alg».proof.Proof.KernelValue
import proofs.«105834_j89412629168562_1_alg».proof.Proof.RefValue

noncomputable section

namespace Cert.Proof.TwoLayers

open Idealize.ShloMosaic Idealize.ShloMosaic.TcCoe Idealize.SL.Sem
open Cert.KernelIdeal.Gen.Result (biasRow)

/-- A bias vector as a row, by the kernel program's reshape and by the reference's broadcast. -/
theorem biasRow_eq_host (bv : FVec Ideal Cert.KernelIdeal.S96 .f32) :
    biasRow bv = broadcastInDim Cert.ReferenceIdeal.S1x96 ![1] Cert.ReferenceIdeal.Gen.bcast_S96_S1x96_1 bv :=
  Cert.Sage.biasRow_eq bv _ _

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The first layers agree. -/
theorem hidden_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Layers.hidden m' c = Cert.KernelIdeal.Gen.Result.hidden m c := by
  unfold Cert.ReferenceIdeal.Layers.hidden Cert.KernelIdeal.Gen.Result.hidden
  rw [Cert.ReferenceIdeal.Layers.layer_eq, h0, h1, h2, h3, h4, ← biasRow_eq_host]

/-- The results agree. -/
theorem result_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v59 m' c = Cert.KernelIdeal.Gen.Result.out m c := by
  rw [Cert.ReferenceIdeal.Layers.res_eq, Cert.ReferenceIdeal.Layers.layer_eq, hidden_eq m m' c h0 h1 h2 h3 h4, h1, h5, h6, h7,
    ← biasRow_eq_host]
  rfl

end Cert.Proof.TwoLayers

end
-- ==== Proof.lean ====
/-
  The certificate of a two-layer neighbourhood-mean graph convolution: each layer forms, for every node, the mean of its
  in-neighbours' feature rows (plain host operations: a gather along the edges' sources, a scatter-add into their
  destinations, a division by the in-degree or by one), and then `max (mean · W_l + x · W_r + b, 0)`. The kernel program
  does the dense part of each layer in a pallas_call over ten tiles of 5000 rows, with bf16 operands into the matrix unit;
  the reference does it with two `dot_general`s on the whole arrays.

  At the ideal values a change of float format is the identity and each product, on either side, is the sum over the 96
  contraction coordinates; both sides add the same three terms in the same order and clip at zero, and the layer is local
  in the rows, so ten tiles' results are the whole array's. The neighbourhood mean is the same chain of host operations
  on both sides and is carried as one function. So both programs end with their result at one function of the arguments
  (`Cert.KernelIdeal.Gen.Result.out`): Proof/DenseSpec.lean (the layer, and its two spellings read at an index),
  Proof/Region0Value.lean and Proof/Region1Value.lean (each call's output array as the layer of the arrays it is entered
  with), Proof/KernelRun.lean and Proof/KernelValue.lean (the program's run with its result named, read back to the
  arguments), Proof/HostChain.lean and Proof/RefValue.lean (the reference's term), Proof/TwoLayers.lean (the two agree).
  Nothing here needs the inputs finite: no law beyond reading each product as a sum is used. The ideal pass rewrote
  nothing, so `preserves` is `True`.
-/
import proofs.«105834_j89412629168562_1_alg».proof.Defs
import proofs.«105834_j89412629168562_1_alg».proof.Proof.Gen.Kernel
import proofs.«105834_j89412629168562_1_alg».proof.Proof.Gen.Kernel.Skeleton
import proofs.«105834_j89412629168562_1_alg».proof.Proof.Gen.Kernel.Launch
import proofs.«105834_j89412629168562_1_alg».proof.Proof.Gen.Kernel.Points
import proofs.«105834_j89412629168562_1_alg».proof.Proof.Gen.Kernel.Frame
import proofs.«105834_j89412629168562_1_alg».proof.Proof.Gen.KernelIdeal
import proofs.«105834_j89412629168562_1_alg».proof.Proof.Gen.KernelIdeal.Skeleton
import proofs.«105834_j89412629168562_1_alg».proof.Proof.Gen.KernelIdeal.Launch
import proofs.«105834_j89412629168562_1_alg».proof.Proof.Gen.KernelIdeal.Points
import proofs.«105834_j89412629168562_1_alg».proof.Proof.Gen.KernelIdeal.Frame
import proofs.«105834_j89412629168562_1_alg».proof.Proof.Gen.ReferenceIdeal
import proofs.«105834_j89412629168562_1_alg».proof.Proof.Gen.Pre_finite_inputs
import proofs.«105834_j89412629168562_1_alg».proof.Proof.Gen.ReferenceIdeal.Run
import proofs.«105834_j89412629168562_1_alg».proof.Proof.TwoLayers
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the second layer's result `out` of the arguments. -/
theorem algebraic : Cert.algebraic_KernelIdeal_ReferenceIdeal := by
  intro m ρ m' ρ' _ hagree
  refine ⟨fun c => Cert.KernelIdeal.Gen.Result.out m c, Cert.KernelIdeal.Gen.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  exact TwoLayers.result_eq m m' c h0 h1 h2 h3 h4 h5 h6 h7

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
